-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S3882x128 : Shape := ⟨2, ![3882, 128]⟩
abbrev S_ : Shape := ⟨0, ![]⟩

class Facts : Prop where
  bcast_S_S3882x128 : S_.BroadcastsInDim S3882x128 (![] : Fin 0 → Fin S3882x128.rank)
  reducesTo_S3882x128_S_d0_1 : S3882x128.ReducesTo [0, 1] S_
  h_S_ : 0 < S_.numel

variable [Facts]

def fn {F : FTy → Type} [FloatOps F] (main_arg0 : IVec S128x512 32) (main_arg1 : FVec F S3882x128 .f32) : IVec S_ 1 :=
  let main_v0 : FVec F S3882x128 .f32 := Host.absf main_arg1
  let main_cst : FVec F S_ .f32 := constant S_ .f32 0x7F800000#32
  let main_v1 : FVec F S3882x128 .f32 := broadcastInDim S3882x128 ![] bcast_S_S3882x128 main_cst
  let main_v2 : IVec S3882x128 1 := cmpf .olt main_v0 main_v1
  let main_c : IVec S_ 1 := constantI S_ 1 1#1
  let main_v3 : IVec S_ 1 := (fun x v => Host.reduce IntOp.andi x v reducesTo_S3882x128_S_d0_1 h_S_) main_v2 main_c
  main_v3
-- ==== Kernel.lean ====
abbrev S128x512 : Shape := ⟨2, ![128, 512]⟩
abbrev S3882x128 : Shape := ⟨2, ![3882, 128]⟩
abbrev S65536x1 : Shape := ⟨2, ![65536, 1]⟩
abbrev S_ : Shape := ⟨0, ![]⟩
abbrev S3968x128 : Shape := ⟨2, ![3968, 128]⟩
abbrev S65536x128 : Shape := ⟨2, ![65536, 128]⟩
abbrev S512x1 : Shape := ⟨2, ![512, 1]⟩
abbrev S512x128 : Shape := ⟨2, ![512, 128]⟩
abbrev S512x3968 : Shape := ⟨2, ![512, 3968]⟩
abbrev S128x512x128 : Shape := ⟨3, ![128, 512, 128]⟩

abbrev nBuf : Space → Nat
  | .hbm => 9
  | .vmem => 5
  | .smem => 0
  | _ => 0

abbrev bufTy : (tb : Table) → Fin (tcTables nBuf tb) → BufTy
  | .hbm, ⟨0, _⟩ => ⟨S128x512, .i32⟩
  | .hbm, ⟨1, _⟩ => ⟨S3882x128, .f32⟩
  | .hbm, ⟨2, _⟩ => ⟨S65536x1, .i32⟩
  | .hbm, ⟨3, _⟩ => ⟨S_, .i32⟩
  | .hbm, ⟨4, _⟩ => ⟨S_, .f32⟩
  | .hbm, ⟨5, _⟩ => ⟨S3968x128, .f32⟩
  | .hbm, ⟨6, _⟩ => ⟨S3968x128, .bf16⟩
  | .hbm, ⟨7, _⟩ => ⟨S65536x128, .f32⟩
  | .hbm, ⟨8, _⟩ => ⟨S128x512x128, .f32⟩
  | .local _ .vmem, ⟨0, _⟩ => ⟨S512x1, .i32⟩
  | .local _ .vmem, ⟨1, _⟩ => ⟨S512x1, .i32⟩
  | .local _ .vmem, ⟨2, _⟩ => ⟨S3968x128, .bf16⟩
  | .local _ .vmem, ⟨3, _⟩ => ⟨S512x128, .f32⟩
  | .local _ .vmem, ⟨4, _⟩ => ⟨S512x128, .f32⟩
  | _, _ => ⟨S128x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3968x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x512_S65536x1 : S128x512.ShapeCasts S65536x1
  pads_S3882x128_S3968x128_0860_000 : S3882x128.Pads (![0, 0] : Fin 2 → Nat) ![86, 0] ![0, 0] S3968x128
  h_S_ : 0 < S_.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x3968_d1_w32 : S512x3968.Iotas .tc 32 [1]
  broadcasts_S512x1_S512x3968 : S512x1.Broadcasts S512x3968
  natLt_1_32 : 1 < 32
  inb_S3968x128_S3968x128_0_0 : ∀ a, (![0, 0] : Fin 2 → Nat) a + S3968x128.size a ≤ S3968x128.size a
  h_S3968x128 : 0 < S3968x128.numel
  shapeCasts_S3968x128_S3968x128 : S3968x128.ShapeCasts S3968x128
  inb_S512x128_S512x128_0_0 : ∀ a, (![0, 0] : Fin 2 → Nat) a + S512x128.size a ≤ S512x128.size a
  h_S512x128 : 0 < S512x128.numel
  shapeCasts_S65536x128_S128x512x128 : S65536x128.ShapeCasts S128x512x128
  dot_S512x3968_S3968x128_S512x128_1_0_0_1_n_n_wf : DotDims.WF S512x3968 S3968x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S65536x1.size a
  hwx0_0 : ∀ i : grid0.Coords, EltTy.bits .i32 = 32 ∨ (Rect.block (s := S65536x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3968x128.size a ≤ S3968x128.size a
  hwx0_1 : ∀ i : grid0.Coords, EltTy.bits .bf16 = 32 ∨ (Rect.block (s := S3968x128) S3968x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S65536x128.size a
  hwx0_2 : ∀ i : grid0.Coords, EltTy.bits .f32 = 32 ∨ (Rect.block (s := S65536x128) S512x128.size (cc0_transform_2 i) (hinb0_2 i)).WholeWords (EltTy.packing .f32)

variable [Facts₀]

def dot_S512x3968_S3968x128_S512x128_1_0_0_1_n_n : DotDims S512x3968 S3968x128 S512x128 where
  lhsContracting := [1]
  rhsContracting := [0]
  lhsNonContracting := [0]
  rhsNonContracting := [1]
  lhsBatch := []
  rhsBatch := []
  wf := dot_S512x3968_S3968x128_S512x128_1_0_0_1_n_n_wf

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3968x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512 : Shape := ⟨2, ![128, 512]⟩
abbrev S3882x128 : Shape := ⟨2, ![3882, 128]⟩
abbrev S128x512x1 : Shape := ⟨3, ![128, 512, 1]⟩
abbrev S1x1x3882 : Shape := ⟨3, ![1, 1, 3882]⟩
abbrev S128x512x3882 : Shape := ⟨3, ![128, 512, 3882]⟩
abbrev S128x512x128 : Shape := ⟨3, ![128, 512, 128]⟩

abbrev nBuf : Space → Nat
  | .hbm => 9
  | .vmem => 0
  | .smem => 0
  | _ => 0

abbrev bufTy : (tb : Table) → Fin (tcTables nBuf tb) → BufTy
  | .hbm, ⟨0, _⟩ => ⟨S128x512, .i32⟩
  | .hbm, ⟨1, _⟩ => ⟨S3882x128, .f32⟩
  | .hbm, ⟨2, _⟩ => ⟨S128x512x1, .i32⟩
  | .hbm, ⟨3, _⟩ => ⟨S1x1x3882, .i32⟩
  | .hbm, ⟨4, _⟩ => ⟨S128x512x3882, .i32⟩
  | .hbm, ⟨5, _⟩ => ⟨S128x512x3882, .i32⟩
  | .hbm, ⟨6, _⟩ => ⟨S128x512x3882, .i1⟩
  | .hbm, ⟨7, _⟩ => ⟨S128x512x3882, .f32⟩
  | .hbm, ⟨8, _⟩ => ⟨S128x512x128, .f32⟩
  | _, _ => ⟨S128x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]

class Facts₀ : Prop where
  bcast_S128x512_S128x512x1_0_1 : S128x512.BroadcastsInDim S128x512x1 (![0, 1] : Fin 2 → Fin S128x512x1.rank)
  bcast_S128x512x1_S128x512x3882_0_1_2 : S128x512x1.BroadcastsInDim S128x512x3882 (![0, 1, 2] : Fin 3 → Fin S128x512x3882.rank)
  bcast_S1x1x3882_S128x512x3882_0_1_2 : S1x1x3882.BroadcastsInDim S128x512x3882 (![0, 1, 2] : Fin 3 → Fin S128x512x3882.rank)
  dot_S128x512x3882_S3882x128_S128x512x128_2_0_01_1_n_n_wf : DotDims.WF S128x512x3882 S3882x128 S128x512x128 [2] [0] [0, 1] [1] [] []

variable [Facts₀]

def dot_S128x512x3882_S3882x128_S128x512x128_2_0_01_1_n_n : DotDims S128x512x3882 S3882x128 S128x512x128 where
  lhsContracting := [2]
  rhsContracting := [0]
  lhsNonContracting := [0, 1]
  rhsNonContracting := [1]
  lhsBatch := []
  rhsBatch := []
  wf := dot_S128x512x3882_S3882x128_S128x512x128_2_0_01_1_n_n_wf

class Facts : Prop extends Facts₀ where

variable [Facts]
-- ==== Proof.LibOneHot.lean ====
/-
  One-hot rows and sums against them, on the extended reals.

  A one-hot row for a 32-bit word `w` has the entry `1` at the position `v` whose 32-bit numeral is `w` and `0` everywhere
  else. A vector unit builds the entry by comparing, widening the one-bit answer to a word and converting the word
  signed; a host program converts the one-bit answer unsigned. Both give the number of the answer bit (`hot_of_widened`,
  `hot_of_bit`), which is `0` or `1` (`hot_eq_ite`).

  A sum of products over `n + p` positions whose last `p` terms vanish is the sum over the first `n`
  (`sum_zero_tail`): what is left of a table padded with `p` zero rows when it is contracted against any row, since
  `x * 0 = 0` for every extended real `x`, the infinities included (`sum_mul_padded`).

  `lookup tok tab` is the embedding lookup written as the one-hot product: for a B x S array of token words and a
  V x D table, entry (a, b, d) is the sum over the table's rows v of (one-hot row of token (a, b) at v) times (table
  entry (v, d)) — the table's row numbered by the token when that number is below V, and zero otherwise.
-/
import Idealize.ShloMosaic.PureOps.Ideal
import Idealize.ShloMosaic.Lib.KernelVsHost
import Idealize.ShloMosaic.Lib.ValueIdx

noncomputable section

open scoped BigOperators

namespace OneHotSum

open Idealize.ShloMosaic

/-- Entry `v` of the one-hot row for the word `w`: the answer bit of "`w` is the 32-bit numeral of `v`", as a number. -/
def hot (w : BitVec 32) (v : Nat) : EReal := (((IntOp.cmpi .eq w (BitVec.ofNat 32 v)).toNat : ℝ) : EReal)

/-- It is `1` where the word is the position's numeral and `0` elsewhere. -/
theorem hot_eq_ite (w : BitVec 32) (v : Nat) : hot w v = if w = BitVec.ofNat 32 v then 1 else 0 := by
  unfold hot IntOp.cmpi
  by_cases h : w = BitVec.ofNat 32 v
  · simp [h]
  · simp [h]

/-- The host's conversion of the answer bit, read unsigned, is the entry. -/
theorem hot_of_bit (w : BitVec 32) (v : Nat) :
    FloatOps.uitofp (F := Ideal) .f32 (IntOp.cmpi .eq w (BitVec.ofNat 32 v)) = hot w v := rfl

/-- The vector unit's conversion — the answer bit widened to a word, the word read signed — is the entry. -/
theorem hot_of_widened (w : BitVec 32) (v : Nat) :
    FloatOps.sitofp (F := Ideal) .f32 ((IntOp.cmpi .eq w (BitVec.ofNat 32 v)).setWidth 32) = hot w v := by
  show (((((IntOp.cmpi .eq w (BitVec.ofNat 32 v)).setWidth 32).toInt : ℤ) : ℝ) : EReal) = _
  rw [toInt_setWidth_bit]
  unfold hot
  norm_cast

/-- A sum over `n + p` positions whose last `p` terms are zero is the sum over the first `n`. -/
theorem sum_zero_tail {M : Type*} [AddCommMonoid M] {n p : Nat} (f : Fin (n + p) → M)
    (h : ∀ j : Fin p, f (Fin.natAdd n j) = 0) : ∑ k, f k = ∑ v : Fin n, f (Fin.castAdd p v) := by
  rw [Fin.sum_univ_add, Finset.sum_eq_zero (fun j _ => h j), add_zero]

/-- A row contracted against a table whose last `p` rows are zero: only the first `n` rows count, whatever the row holds. -/
theorem sum_mul_padded {n p : Nat} (a b : Fin (n + p) → EReal) (hb : ∀ j : Fin p, b (Fin.natAdd n j) = 0) :
    ∑ k, a k * b k = ∑ v : Fin n, a (Fin.castAdd p v) * b (Fin.castAdd p v) :=
  sum_zero_tail (fun k => a k * b k) fun j => by rw [hb j, mul_zero]

/-- The embedding lookup as a one-hot product: entry (a, b, d) sums, over the table's rows, token (a, b)'s one-hot row
    times column d. -/
def lookup {B S V D : Nat} (tok : (⟨2, ![B, S]⟩ : Shape).Idx → BitVec 32) (tab : (⟨2, ![V, D]⟩ : Shape).Idx → EReal) :
    (⟨3, ![B, S, D]⟩ : Shape).Idx → EReal :=
  fun i => ∑ v : Fin V, hot (tok (ValueIdx.ix2 (i 0) (i 1))) v.val * tab (ValueIdx.ix2 v (i 2))

end OneHotSum

end
-- ==== Proof.StoredBlock.lean ====
/-
  The kernel body's one stored value, read at one entry.

  The body compares the block's 512 token words, each laid along 3968 lanes, with the lane numbers, turns the answers
  into numbers and multiplies the resulting 512 x 3968 matrix of one-hot rows into the 3968 x 128 table block, adding
  into zero. On the extended reals the change of float format is the identity and the product is the plain sum over the
  3968 table rows, so entry (p, q) of the stored block is the sum over rows k of (one-hot row of token p at k) times
  (table entry (k, q)).
-/
import proofs.«161354_j14903536517909_1_alg».proof.Proof.Gen.KernelIdeal.Skeleton
import proofs.«161354_j14903536517909_1_alg».proof.Proof.LibOneHot
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx OneHotSum

/-! ## The product's operand indices, coordinate by coordinate -/

theorem lhs_row (i : S512x128.Idx) (q : dot_S512x3968_S3968x128_S512x128_1_0_0_1_n_n.contr.Idx) :
    (dot_S512x3968_S3968x128_S512x128_1_0_0_1_n_n.lhsIdx i q 0).val = (i 0).val := by
  unfold DotDims.lhsIdx
  rw [dif_neg (show ¬(0 : Fin S512x3968.rank) ∈ dot_S512x3968_S3968x128_S512x128_1_0_0_1_n_n.lhsBatch by decide), dif_pos (show (0 : Fin S512x3968.rank) ∈ dot_S512x3968_S3968x128_S512x128_1_0_0_1_n_n.lhsNonContracting by decide)]
  rfl
theorem lhs_lane (i : S512x128.Idx) (q : dot_S512x3968_S3968x128_S512x128_1_0_0_1_n_n.contr.Idx) :
    (dot_S512x3968_S3968x128_S512x128_1_0_0_1_n_n.lhsIdx i q 1).val = (q ⟨0, by decide⟩).val :=
  dot_S512x3968_S3968x128_S512x128_1_0_0_1_n_n.lhsIdx_val_of_single rfl i q
theorem rhs_row (i : S512x128.Idx) (q : dot_S512x3968_S3968x128_S512x128_1_0_0_1_n_n.contr.Idx) :
    (dot_S512x3968_S3968x128_S512x128_1_0_0_1_n_n.rhsIdx i q 0).val = (q ⟨0, by decide⟩).val :=
  dot_S512x3968_S3968x128_S512x128_1_0_0_1_n_n.rhsIdx_val_of_single rfl i q
theorem rhs_col (i : S512x128.Idx) (q : dot_S512x3968_S3968x128_S512x128_1_0_0_1_n_n.contr.Idx) :
    (dot_S512x3968_S3968x128_S512x128_1_0_0_1_n_n.rhsIdx i q 1).val = (i 1).val := by
  unfold DotDims.rhsIdx
  rw [dif_neg (show ¬(1 : Fin S3968x128.rank) ∈ dot_S512x3968_S3968x128_S512x128_1_0_0_1_n_n.rhsBatch by decide), dif_pos (show (1 : Fin S3968x128.rank) ∈ dot_S512x3968_S3968x128_S512x128_1_0_0_1_n_n.rhsNonContracting by decide)]
  rfl

/-! ## The one-hot matrix at an entry -/

/-- Entry (p, k) of the matrix the body multiplies from the left: token p's word compared with lane number k, as a number. -/
theorem onehot_apply (x0 : Vec Ideal S512x1 .i32) (p : Fin 512) (k : Fin 3968) :
    (truncf .bf16 (sitofp (F := Ideal) .f32 (extui 32 (cmpi .eq (broadcastTo S512x3968 (shapeCast S512x1 x0 shapeCasts_S512x1_S512x1) broadcasts_S512x1_S512x3968) (iota .tc S512x3968 32 [1] iota_S512x3968_d1_w32)) natLt_1_32)) bitsLt_bf16_f32 : FVec Ideal S512x3968 .bf16) (ix2 p k)
      = hot (x0 (ix2 p 0)) k.val := by
  rw [shapeCast_self]
  show FloatOps.sitofp (F := Ideal) .f32 ((IntOp.cmpi .eq (broadcastTo S512x3968 x0 broadcasts_S512x1_S512x3968 (ix2 p k)) (iota .tc S512x3968 32 [1] iota_S512x3968_d1_w32 (ix2 p k))).setWidth 32) = _
  rw [broadcastTo_apply x0 broadcasts_S512x1_S512x3968 (ix2 p k) (ix2 p 0) (fun a => match a with
      | ⟨0, _⟩ => by show p.val = if (512 : Nat) = 1 then 0 else p.val; rw [if_neg (by decide)]
      | ⟨1, _⟩ => by show 0 = if (1 : Nat) = 1 then 0 else k.val; rw [if_pos rfl]),
    iota_single_apply]
  exact hot_of_widened _ _

/-! ## The stored value at an entry -/

/-- Entry (p, q) of what the body stores: the sum over the 3968 table rows of token p's one-hot row times column q. -/
theorem stored_apply (x0 : Vec Ideal S512x1 .i32) (x1 : Vec Ideal S3968x128 .bf16) (p : Fin 512) (q : Fin 128) :
    k0_pay1 (F := Ideal) x0 x1 (ix2 p q) = ∑ k : Fin 3968, hot (x0 (ix2 p 0)) k.val * x1 (ix2 k q) := by
  unfold k0_pay1
  simp only [matmul]
  rw [Ideal.matmul_constant_zero_apply, ← Equiv.sum_comp (contrEquiv1 dot_S512x3968_S3968x128_S512x128_1_0_0_1_n_n 3968 rfl rfl).symm]
  refine Finset.sum_congr rfl fun k _ => ?_
  have hk := contrEquiv1_symm_val dot_S512x3968_S3968x128_S512x128_1_0_0_1_n_n 3968 rfl rfl k
  have el : dot_S512x3968_S3968x128_S512x128_1_0_0_1_n_n.lhsIdx (ix2 p q) ((contrEquiv1 dot_S512x3968_S3968x128_S512x128_1_0_0_1_n_n 3968 rfl rfl).symm k) = ix2 p k := funext fun a => Fin.ext (by
    match a with
    | ⟨0, _⟩ => exact lhs_row _ _
    | ⟨1, _⟩ => exact (lhs_lane _ _).trans hk)
  have er : dot_S512x3968_S3968x128_S512x128_1_0_0_1_n_n.rhsIdx (ix2 p q) ((contrEquiv1 dot_S512x3968_S3968x128_S512x128_1_0_0_1_n_n 3968 rfl rfl).symm k) = ix2 k q := funext fun a => Fin.ext (by
    match a with
    | ⟨0, _⟩ => exact (rhs_row _ _).trans hk
    | ⟨1, _⟩ => exact rhs_col _ _)
  rw [el, er, onehot_apply, shapeCast_self]

end Cert.KernelIdeal.Body

end
-- ==== Proof.OutputRows.lean ====
/-
  From the blocks the grid points write back to the whole output array of the region.

  Point t of the 128-point grid reads rows 512 t … 512 t + 511 of the token column and the whole padded table, and
  writes back rows 512 t … 512 t + 511 of the 65536 x 128 output. By the body's stored value, entry (r, q) of the
  output is the sum over the 3968 padded-table rows k of (one-hot row of the token in column row r, at k) times
  (padded-table entry (k, q)): one function of the two arrays the region finds, of which every point writes its own
  rows; the 128 blocks tile the output, so after the run the output array is that function.
-/
import proofs.«161354_j14903536517909_1_alg».proof.Proof.Gen.KernelIdeal.Frame
import proofs.«161354_j14903536517909_1_alg».proof.Proof.StoredBlock
import Idealize.ShloMosaic.Lib.Pipeline.Value
import Idealize.ShloMosaic.Lib.ValueIdx

set_option maxRecDepth 16384

noncomputable section

open scoped BigOperators

namespace Cert.KernelIdeal.Rows

open Cert.KernelIdeal Cert.KernelIdeal.Gen Idealize.ShloMosaic Idealize.ShloMosaic.TcCoe Idealize.SL.Sem Idealize.ShloMosaic.ValueIdx OneHotSum
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The output of the region as a function of the token column and the padded table: row r is the one-hot row of the
    column's word r contracted against the padded table. -/
def rows (col : S65536x1.Idx → BitVec 32) (tab : S3968x128.Idx → EReal) : S65536x128.Idx → EReal :=
  fun i => ∑ k : Fin 3968, hot (col (ix2 (i 0) 0)) k.val * tab (ix2 k (i 1))

/-- The index maps over the grid: the column's and the output's blocks move together, one block of 512 rows a point;
    the table's one block stays. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of `rows` of the arrays as the region finds them. -/
theorem flushed_eq (c : Dev nD) (t : Fin cfg0.N) :
    (dats m 0 c).flushed 2 t = ((cfg0.win 2).blk t).view.read (Elt Ideal) (rows (V m c main_v0) (V m c main_v2)) := by
  show (cfg0.win 2).cut (grid0.coords t) ((dats m 0 c).after 2 t) = _
  rw [after0_2]
  unfold out0_2
  rw [View.canon_unit_zero hz]
  simp only [View.ld_unit_zero (S := S512x1) hz, View.ld_unit_zero (S := S3968x128) hz]
  obtain ⟨e0, e1, e2, e3, e4, e5⟩ := idx_facts t
  funext j
  obtain ⟨p, q, rfl⟩ : ∃ (p : Fin 512) (q : Fin 128), j = ix2 p q := ⟨j 0, j 1, eq_ix2 j⟩
  show k0_pay1 (F := Ideal) (iblk m c 0 t) (iblk m c 1 t) (ix2 p q) = rows (V m c main_v0) (V m c main_v2) (((cfg0.win 2).blk t).view.emb (ix2 p q))
  refine (Body.stored_apply _ _ p q).trans ?_
  unfold rows
  refine Finset.sum_congr rfl fun k _ => ?_
  have h0 : (iblk m c 0 t : Vec Ideal S512x1 .i32) (ix2 p 0) = (V m c main_v0 : S65536x1.Idx → BitVec 32) (ix2 ((((cfg0.win 2).blk t).view.emb (ix2 p q)) 0) 0) := by
    show V m c main_v0 (((cfg0.win 0).blk t).view.emb (ix2 p 0)) = _
    congr 1
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1 + 1 * 0 = 0; omega
  have h1 : (iblk m c 1 t : Vec Ideal S3968x128 .bf16) (ix2 k q) = (V m c main_v2 : S3968x128.Idx → EReal) (ix2 k ((((cfg0.win 2).blk t).view.emb (ix2 p q)) 1)) := by
    show V m c main_v2 (((cfg0.win 1).blk t).view.emb (ix2 k q)) = _
    congr 1
    funext a; apply Fin.ext
    match a with
    | ⟨0, _⟩ => show win0_1.index t (0 : Fin 2) * 3968 + 1 * k.val = k.val; omega
    | ⟨1, _⟩ => show win0_1.index t (1 : Fin 2) * 128 + 1 * q.val = win0_2.index t (1 : Fin 2) * 128 + 1 * q.val; omega
  rw [h0, h1]

/-- An index of the output is in point t's block iff each coordinate is in the block's range on its axis. -/
theorem mem_blk (t : Fin cfg0.N) (i : S65536x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v3).slice (win0_2.rect t)).set ↔ _
  rw [View.set_slice_whole, Rect.mem_set_unit]
  exact Iff.rfl

/-- Row r lies in the block of point r / 512. -/
theorem cover (i : S65536x128.Idx) : ∃ t : Fin cfg0.N, (cfg0.win 2).flush t = true ∧ i ∈ ((cfg0.win 2).blk t).view.set := by
  have hi0 : (i 0).val < 65536 := (i 0).isLt
  have hi1 : (i 1).val < 128 := (i 1).isLt
  have hN : cfg0.N = 128 := N_0
  let t : Fin cfg0.N := ⟨(i 0).val / 512, by rw [hN]; omega⟩
  obtain ⟨e0, e1, e2, e3, e4, e5⟩ := idx_facts t
  have e4' : win0_2.index t (0 : Fin 2) = (i 0).val / 512 := e4
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-- The output array after the run is `rows` of the arrays as the region finds them. -/
theorem final (c : Dev nD) : (dats m 0 c).arrAt 2 cfg0.N = rows (V m c main_v0) (V m c main_v2) :=
  (dats m 0 c).arrAt_eq_of_cover 2 (rows (V m c main_v0) (V m c main_v2)) (fun t _ => flushed_eq m c t) cover

end Cert.KernelIdeal.Rows

end
-- ==== Proof.RegionEntry.lean ====
/-
  What the kernel region finds in its two input arrays.

  Before the region the host lays the 128 x 512 token words out as one column of 65536 words (row-major: token (a, b) is
  row 512 a + b), and pads the 3882 x 128 table with 86 rows of the float of the integer 0 to 3968 rows; the change of
  float format that follows is the identity on the extended reals. So row r of the column is token (r / 512, r % 512),
  and row k of the padded table is the table's row k below 3882 and zero from there on.
-/
import proofs.«161354_j14903536517909_1_alg».proof.Proof.Gen.KernelIdeal.Frame
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.ValueIdx Idealize.ShloMosaic.StableHlo

variable (m : (ℓ : Loc nD τ sig) → Buf (Elt Ideal) ℓ)

/-- The token words as launched, at their literal type. -/
abbrev tokens (c : Dev nD) : S128x512.Idx → BitVec 32 := m ((c : Thread nD τ).loc main_arg0)
/-- The table as launched, at its literal type. -/
abbrev table (c : Dev nD) : S3882x128.Idx → EReal := m ((c : Thread nD τ).loc main_arg1)

/-- The column of token words the region reads is the launched tokens reshaped. -/
theorem column_eq (c : Dev nD) :
    (V m c main_v0 : S65536x1.Idx → BitVec 32) = shapeCast S65536x1 (tokens m c) shapeCasts_S128x512_S65536x1 := by
  dsimp only [Gen.V, Gen.V0]
  simp only [hostOps0, hostOps0_1, hostOps0_2, List.flatten_cons, List.flatten_nil, List.append_nil, List.cons_append, List.nil_append]
  after_results
  rfl

/-- The table the region reads is the launched table padded below with the float of the integer zero. -/
theorem padded_eq (c : Dev nD) :
    (V m c main_v2 : S3968x128.Idx → EReal)
      = truncf (F := Ideal) .bf16 (pad S3968x128 ![0, 0] ![86, 0] ![0, 0] (table m c) (sitofp (F := Ideal) .f32 (constantI S_ 32 0#32)) pads_S3882x128_S3968x128_0860_000 h_S_) bitsLt_bf16_f32 := by
  dsimp only [Gen.V, Gen.V0]
  simp only [hostOps0, hostOps0_1, hostOps0_2, List.flatten_cons, List.flatten_nil, List.append_nil, List.cons_append, List.nil_append]
  after_results
  rfl

/-- Row r of the column is token (a, b) when r = 512 a + b. -/
theorem column_apply (c : Dev nD) (r : Fin 65536) (a : Fin 128) (b : Fin 512) (hr : r.val = 512 * a.val + b.val) :
    (V m c main_v0 : S65536x1.Idx → BitVec 32) (ix2 r 0) = tokens m c (ix2 a b) := by
  rw [column_eq]
  refine shapeCast_apply _ _ (ix2 r 0) (ix2 a b) ?_
  rw [Shape.rowMajor_val_two, Shape.rowMajor_val_two]
  show a.val * 512 + b.val = r.val * 1 + 0
  omega

/-- Below row 3882 the padded table is the table. -/
theorem padded_apply_of_lt (c : Dev nD) (k : Fin 3968) (q : Fin 128) (v : Fin 3882) (hv : k.val = v.val) :
    (V m c main_v2 : S3968x128.Idx → EReal) (ix2 k q) = table m c (ix2 v q) := by
  rw [padded_eq]
  show pad S3968x128 ![0, 0] ![86, 0] ![0, 0] (table m c) (sitofp (F := Ideal) .f32 (constantI S_ 32 0#32)) pads_S3882x128_S3968x128_0860_000 h_S_ (ix2 k q) = _
  refine pad_apply_of_inside _ _ _ _ _ _ _ (ix2 k q) (ix2 v q) fun a => ?_
  match a with
  | ⟨0, _⟩ => show k.val = 0 + v.val * (0 + 1); omega
  | ⟨1, _⟩ => show q.val = 0 + q.val * (0 + 1); omega

/-- From row 3882 on it is zero. -/
theorem padded_apply_of_ge (c : Dev nD) (k : Fin 3968) (q : Fin 128) (hk : 3882 ≤ k.val) :
    (V m c main_v2 : S3968x128.Idx → EReal) (ix2 k q) = (0 : EReal) := by
  rw [padded_eq]
  show pad S3968x128 ![0, 0] ![86, 0] ![0, 0] (table m c) (sitofp (F := Ideal) .f32 (constantI S_ 32 0#32)) pads_S3882x128_S3968x128_0860_000 h_S_ (ix2 k q) = _
  rw [pad_apply_of_not_inside _ _ _ _ _ pads_S3882x128_S3968x128_0860_000 h_S_ (ix2 k q) (0 : Fin 2) (by
    show ¬(0 ≤ k.val ∧ (k.val - 0) % (0 + 1) = 0 ∧ (k.val - 0) / (0 + 1) < 3882)
    omega)]
  exact sitofp_zero (φ := .f32)

end Cert.KernelIdeal.Entry

end
-- ==== Proof.KernelLookup.lean ====
/-
  The kernel program's result is the embedding lookup.

  Row r = 512 a + b of the region's output contracts token (a, b)'s one-hot row against the padded table; the padded
  table's rows from 3882 on are zero, so their terms vanish whatever the one-hot row holds there (0 or 1), and below 3882
  the padded table is the table: the row is `lookup` at (a, b, ·). The host line after the region only reshapes the
  65536 x 128 output to 128 x 512 x 128, row-major, which sends (a, b, d) to row 512 a + b, column d.
-/
import proofs.«161354_j14903536517909_1_alg».proof.Proof.Gen.KernelIdeal.Frame
import proofs.«161354_j14903536517909_1_alg».proof.Proof.OutputRows
import proofs.«161354_j14903536517909_1_alg».proof.Proof.RegionEntry
import proofs.«161354_j14903536517909_1_alg».proof.Proof.LibOneHot
import Idealize.ShloMosaic.Lib.StableHlo.Run
import Idealize.ShloMosaic.Lib.Pipeline.Value
import Idealize.ShloMosaic.Lib.ValueIdx

noncomputable section

open scoped BigOperators

namespace Cert.KernelIdeal.Result

open Cert.KernelIdeal Cert.KernelIdeal.Gen Idealize.ShloMosaic Idealize.ShloMosaic.TcCoe Idealize.SL.Sem Idealize.ShloMosaic.ValueIdx Idealize.ShloMosaic.StableHlo OneHotSum

variable (m : (ℓ : Loc nD τ sig) → Buf (Elt Ideal) ℓ) (ρ : Dev nD → PrngReg)

/-- Row 512 a + b of the region's output, at column d, is the lookup at (a, b, d): the 86 zero rows of the padded
    table drop out of the sum. -/
theorem rows_apply (c : Dev nD) (r : Fin 65536) (a : Fin 128) (b : Fin 512) (d : Fin 128) (hr : r.val = 512 * a.val + b.val) :
    Rows.rows (V m c main_v0) (V m c main_v2) (ix2 r d) = lookup (Entry.tokens m c) (Entry.table m c) (ix3 a b d) := by
  show ∑ k : Fin 3968, hot ((V m c main_v0 : S65536x1.Idx → BitVec 32) (ix2 r 0)) k.val * (V m c main_v2 : S3968x128.Idx → EReal) (ix2 k d)
    = ∑ v : Fin 3882, hot (Entry.tokens m c (ix2 a b)) v.val * Entry.table m c (ix2 v d)
  rw [Entry.column_apply m c r a b hr]
  refine (sum_mul_padded (n := 3882) (p := 86) (fun k => hot (Entry.tokens m c (ix2 a b)) k.val)
    (fun k => (V m c main_v2 : S3968x128.Idx → EReal) (ix2 k d))
    (fun j => Entry.padded_apply_of_ge m c _ d (by show 3882 ≤ 3882 + j.val; omega))).trans ?_
  refine Finset.sum_congr rfl fun v _ => ?_
  rw [Entry.padded_apply_of_lt m c (Fin.castAdd 86 v) d v rfl]
  rfl

/-- What the host line after the region leaves in the program's result: the lookup of the launched tokens in the
    launched table. -/
theorem result_eq (c : Dev nD) :
    Pipeline.afterTail₀ cfgs (dats m) 0 (V0 m) [hostOps1] c main_v4 = lookup (Entry.tokens m c) (Entry.table m c) := by
  have hw : Pipeline.withArrays (cfgs 0).spec c (V0 m c) (fun w => (dats m 0 c).arrAt w (cfgs 0).N) (Proc.devRef .tc main_v3)
      = Rows.rows (V m c main_v0) (V m c main_v2) :=
    (Pipeline.withArrays_arr spec0 launch0.win.arr_inj c _ _ 2).trans (Rows.final m c)
  unfold Pipeline.afterTail₀
  show StableHlo.after hostOps1 _ (Proc.devRef .tc main_v4) = _
  after_results
  funext i
  obtain ⟨a, b, d, rfl⟩ : ∃ (a : Fin 128) (b : Fin 512) (d : Fin 128), i = ix3 a b d := ⟨i 0, i 1, i 2, eq_ix3 i⟩
  show shapeCast S128x512x128 (Pipeline.withArrays (cfgs 0).spec c (V0 m c) (fun w => (dats m 0 c).arrAt w (cfgs 0).N) (Proc.devRef .tc main_v3))
    shapeCasts_S65536x128_S128x512x128 (ix3 a b d) = _
  rw [hw]
  have ha : a.val < 128 := a.isLt
  have hb : b.val < 512 := b.isLt
  refine (shapeCast_apply _ _ (ix3 a b d) (ix2 (⟨512 * a.val + b.val, by omega⟩ : Fin 65536) d) ?_).trans (rows_apply m c _ a b d rfl)
  rw [Shape.rowMajor_val_two, Shape.rowMajor_val_three]
  show (512 * a.val + b.val) * 128 + d.val = (a.val * 512 + b.val) * 128 + d.val
  omega

/-- The kernel program's run, read: every weakly fair execution ends with the result at the lookup and the arguments
    unchanged. -/
theorem run : θ_run defs (onTc (τ := τ) (main (F := Ideal))) ⟨m, fun _ => 0, ρ⟩ fun r => ∀ c : Dev nD,
      r.2.mem ((c.tc : Thread nD τ).loc main_v4) = lookup (Entry.tokens m c) (Entry.table m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Result

end
-- ==== Proof.ReferenceLookup.lean ====
/-
  The reference computes the embedding lookup as a one-hot product.

  The host builds, for every token (a, b), the row of answers "token = v" over v < 3882, converts the answer bits to
  numbers and contracts the rows against the 3882 x 128 table. Read at an entry (a, b, d) this is, term by term, the sum
  that defines `lookup`.
-/
import proofs.«161354_j14903536517909_1_alg».proof.Proof.Gen.ReferenceIdeal.Read
import proofs.«161354_j14903536517909_1_alg».proof.Proof.LibOneHot
import Idealize.ShloMosaic.Lib.ValueIdx

noncomputable section

open scoped BigOperators

namespace Cert.ReferenceIdeal.Lookup

open Cert.ReferenceIdeal Cert.ReferenceIdeal.Gen Cert.ReferenceIdeal.Read Idealize.ShloMosaic Idealize.ShloMosaic.ValueIdx OneHotSum

/-- Entry (a, b, v) of the host's one-hot array is token (a, b)'s one-hot row at v. -/
theorem onehot_apply (x0 : (⟨S128x512, .i32⟩ : BufTy).Contents (Elt Ideal)) (i : S128x512x3882.Idx) :
    val_main_v0 (F := Ideal) x0 i = hot (x0 (ix2 (i 0) (i 1))) (i 2).val := by
  rw [val_main_v0_apply, val_main_call0_v4_apply, val_main_call0_v2_apply, val_main_call0_v0_apply,
    val_main_call0_v3_apply, val_main_call0_v1_apply]
  have e : idx_main_call0_v0 (idx_main_call0_v2 i) = ix2 (i 0) (i 1) := funext fun a => Fin.ext (by
    match a with
    | ⟨0, _⟩ => rfl
    | ⟨1, _⟩ => rfl)
  rw [e]
  exact hot_of_bit _ _

/-- The reference's result is the lookup of the tokens in the table. -/
theorem result_eq (x0 : (⟨S128x512, .i32⟩ : BufTy).Contents (Elt Ideal)) (x1 : (⟨S3882x128, .f32⟩ : BufTy).Contents (Elt Ideal)) :
    val_main_v1 (F := Ideal) x0 x1 = lookup x0 x1 := by
  funext i
  rw [val_main_v1_apply]
  unfold lookup
  refine Finset.sum_congr rfl fun k _ => ?_
  rw [onehot_apply]
  have er : ridx_main_v1 i k = ix2 k (i 2) := funext fun a => Fin.ext (by
    match a with
    | ⟨0, _⟩ => rfl
    | ⟨1, _⟩ => rfl)
  rw [er]
  rfl

end Cert.ReferenceIdeal.Lookup

end
-- ==== Proof.lean ====
/-
  An embedding lookup written as a one-hot product: a kernel on a 128-point grid against its reference.

  Both programs take 128 x 512 token words and a 3882 x 128 float table and return, for token (a, b) and column d, the
  sum over table rows v of [token (a, b) = v] times table entry (v, d) (`OneHotSum.lookup`). The reference builds the
  one-hot rows over the 3882 table rows and contracts them against the table. The kernel lays the tokens out as a column
  of 65536 words, pads the table with 86 zero rows to 3968, and at each of 128 grid points multiplies the one-hot
  matrix of 512 tokens over 3968 lanes into the padded table. On the extended reals the format changes are the
  identity and the matrix products plain sums; the 86 extra terms are a one-hot entry (0 or 1) times zero, which is
  zero for every extended real, so no term of the sum ever needs the table's entries to be finite. A token word that is
  no row number below 3882 gives the zero row on both sides.

  The frames of the two kernel programs are the generated ones; the reference's frame is its generated run with the
  result dropped; no operation was rewritten by the idealization, so there is nothing to preserve.
-/
import proofs.«161354_j14903536517909_1_alg».proof.Defs
import proofs.«161354_j14903536517909_1_alg».proof.Proof.Gen.Kernel
import proofs.«161354_j14903536517909_1_alg».proof.Proof.Gen.Kernel.Skeleton
import proofs.«161354_j14903536517909_1_alg».proof.Proof.Gen.Kernel.Launch
import proofs.«161354_j14903536517909_1_alg».proof.Proof.Gen.Kernel.Points
import proofs.«161354_j14903536517909_1_alg».proof.Proof.Gen.Kernel.Frame
import proofs.«161354_j14903536517909_1_alg».proof.Proof.Gen.KernelIdeal
import proofs.«161354_j14903536517909_1_alg».proof.Proof.Gen.KernelIdeal.Skeleton
import proofs.«161354_j14903536517909_1_alg».proof.Proof.Gen.KernelIdeal.Launch
import proofs.«161354_j14903536517909_1_alg».proof.Proof.Gen.KernelIdeal.Points
import proofs.«161354_j14903536517909_1_alg».proof.Proof.Gen.KernelIdeal.Frame
import proofs.«161354_j14903536517909_1_alg».proof.Proof.Gen.ReferenceIdeal
import proofs.«161354_j14903536517909_1_alg».proof.Proof.Gen.Pre_finite_inputs
import proofs.«161354_j14903536517909_1_alg».proof.Proof.Gen.ReferenceIdeal.Run
import proofs.«161354_j14903536517909_1_alg».proof.Proof.Gen.ReferenceIdeal.Read
import proofs.«161354_j14903536517909_1_alg».proof.Proof.KernelLookup
import proofs.«161354_j14903536517909_1_alg».proof.Proof.ReferenceLookup
import Idealize.ShloMosaic.Adequacy
import Idealize.ShloMosaic.Init

noncomputable section

namespace Cert.Proof

open Idealize.ShloMosaic Idealize.SL.Sem OneHotSum

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the tokens and the table, both programs end with the lookup of those tokens in that
    table: the kernel's run read through its blocks and its host lines, the reference's run read entry by entry. -/
theorem algebraic : Cert.algebraic_KernelIdeal_ReferenceIdeal := by
  intro m ρ m' ρ' _ hagree
  refine ⟨fun c => lookup (Cert.KernelIdeal.Entry.tokens m c) (Cert.KernelIdeal.Entry.table m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Lookup.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
